-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : IVec S4096x4096 1) (main_arg3 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S16384x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x512_S1024x512_0_0 : ∀ a, (![0, 0] : Fin 2 → Nat) a + S1024x512.size a ≤ S1024x512.size a
  h_S1024x512 : 0 < S1024x512.numel
  shapeCasts_S1024x2048_S1024x2048 : S1024x2048.ShapeCasts S1024x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x4096.size a
  hwx0_3 : ∀ i : grid0.Coords, EltTy.bits .f32 = 32 ∨ (Rect.block (s := S16384x4096) S1024x2048.size (cc0_transform_3 i) (hinb0_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096x4096, .i1⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.BlockSum.lean ====
/-
  Two small tools for reading a blocked matrix product.

  (1) A matrix read at natural-number coordinates (zero outside its shape): with it a block's entry
      "block index × block size + offset" is an ordinary sum of naturals, and two reads agree as soon as their
      coordinates do.

  (2) Regrouping: a sum over κ < 4096 is the sum over the eight consecutive chunks of 512,
        ∑ κ < 4096, g κ  =  ∑ s < 8, ∑ j < 512, g (512·s + j),
      and eight chunk sums accumulated one after the other from zero, the last added separately, are that double sum.
      Both use only that addition is commutative and associative, so they hold on the extended reals with no
      finiteness assumption.
-/
import Idealize.ShloMosaic.Lib.ValueIdx

namespace Cert.BlockSum

open Idealize.ShloMosaic Idealize.ShloMosaic.ValueIdx

/-! ## A matrix and a vector at natural coordinates -/

/-- Entry (i, j) of a matrix, zero when (i, j) is outside it. -/
noncomputable def at2 {a b : ℕ} (A : (⟨2, ![a, b]⟩ : Shape).Idx → EReal) (i j : ℕ) : EReal :=
  if h : i < a ∧ j < b then A (ix2 ⟨i, h.1⟩ ⟨j, h.2⟩) else 0

theorem at2_ix2 {a b : ℕ} (A : (⟨2, ![a, b]⟩ : Shape).Idx → EReal) (p : Fin a) (q : Fin b) :
    at2 A p.val q.val = A (ix2 p q) := by
  unfold at2
  rw [dif_pos ⟨p.isLt, q.isLt⟩]

/-- An entry read at an index whose coordinates are known as naturals. -/
theorem eq_at2 {a b : ℕ} (A : (⟨2, ![a, b]⟩ : Shape).Idx → EReal) (x : (⟨2, ![a, b]⟩ : Shape).Idx) (i j : ℕ)
    (hi : (x 0).val = i) (hj : (x 1).val = j) : A x = at2 A i j := by
  subst hi; subst hj
  rw [eq_ix2 x]
  exact (at2_ix2 A (x 0) (x 1)).symm

/-- Entry j of a vector, zero when j is outside it. -/
noncomputable def at1 {a : ℕ} (v : (⟨1, ![a]⟩ : Shape).Idx → EReal) (j : ℕ) : EReal :=
  if h : j < a then v (ix1 ⟨j, h⟩) else 0

theorem at1_ix1 {a : ℕ} (v : (⟨1, ![a]⟩ : Shape).Idx → EReal) (q : Fin a) : at1 v q.val = v (ix1 q) := by
  unfold at1
  rw [dif_pos q.isLt]

/-! ## Regrouping a sum of 4096 terms into eight chunks of 512 -/

/-- The sum over κ < 4096 by chunks: chunk s holds the positions 512·s … 512·s + 511. -/
theorem sum_chunks {β : Type*} [AddCommMonoid β] (g : ℕ → β) :
    ∑ k : Fin 4096, g k.val = ∑ s : Fin 8, ∑ j : Fin 512, g (512 * s.val + j.val) := by
  have e := (Equiv.sum_comp (finProdFinEquiv (m := 8) (n := 512)) (fun k : Fin (8 * 512) => g k.val)).symm
  refine (e.trans ?_)
  rw [Fintype.sum_prod_type]
  refine Finset.sum_congr rfl fun s _ => Finset.sum_congr rfl fun j _ => congrArg g ?_
  show j.val + 512 * s.val = 512 * s.val + j.val
  omega

/-- Eight chunk sums accumulated from zero, chunks 0 … 6 first and chunk 7 added last, are the sum of all eight. -/
theorem acc_eight {β : Type*} [AddCommMonoid β] (c : ℕ → β) :
    (0 + ∑ s ∈ Finset.range 7, c s) + c 7 = ∑ s : Fin 8, c s.val := by
  rw [zero_add, ← Finset.sum_range_succ, Finset.sum_range]

end Cert.BlockSum
-- ==== Proof.KernelValue.lean ====
/-
  The kernel's result array, entry by entry.

  The grid is 16 × 2 × 8: point t = 16·i + 8·j + k works on the rows 1024·i … 1024·i + 1023 and the columns
  2048·j … 2048·j + 2047 of the result, and its third coordinate k runs through the eight chunks of 512 of the
  contracted axis. Within one run of eight points the output block is set to zero at k = 0, receives the chunk product
      ∑ κ < 512, x (row, 512·k + κ) · w (512·k + κ, column)
  at every k, and at k = 7 has the bias added and is cut off below at zero. Here w is the weight times the mask read
  as 0 / 1 (the host forms it before the call; the two changes of float format are the identity on the extended
  reals), and the bias is the bias vector laid out as one row.

  So entry (P, Q) of the result is
      max ( (0 + ∑ s < 7, chunk s) + chunk 7 + bias Q , 0 )   =   max ( ∑ κ < 4096, x (P, κ) · w (κ, Q) + bias Q , 0 ),
  the second form by regrouping the sum, which needs only commutativity and associativity of addition.
-/
import proofs.«109987_j12575664242876_1_alg».proof.Proof.Gen.KernelIdeal.Value
import proofs.«109987_j12575664242876_1_alg».proof.Proof.LibPlainDot
import proofs.«109987_j12575664242876_1_alg».proof.Proof.BlockSum
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Entry

open Cert.KernelIdeal Cert.KernelIdeal.Gen Idealize.ShloMosaic Idealize.ShloMosaic.TcCoe Idealize.SL.Sem
open Idealize.ShloMosaic.ValueIdx Cert.BlockSum

/-! ## One point's arithmetic at an entry -/

/-- The body's product is a plain [1024, 512] · [512, 2048] matrix product. -/
theorem dot_plain : Cert.PlainDot.Plain dot_S1024x512_S512x2048_S1024x2048_1_0_0_1_n_n :=
  ⟨rfl, rfl, rfl, rfl, rfl, rfl⟩

/-- The block a run starts from is zero everywhere. -/
theorem pay1_apply (y : S1024x2048.Idx) : k0_pay1 (F := Ideal) y = 0 := by
  unfold k0_pay1
  exact Ideal.ofBits_zero_f32

/-- One accumulation step at entry (p, q): what the block held there plus the chunk product's entry. -/
theorem pay2_apply (x : Vec Ideal S1024x512 .f32) (acc : Vec Ideal S1024x2048 .f32) (w : Vec Ideal S512x2048 .bf16)
    (p : Fin 1024) (q : Fin 2048) :
    k0_pay2 x acc w (ix2 p q) = acc (ix2 p q) + ∑ κ : Fin 512, x (ix2 p κ) * w (ix2 κ q) := by
  unfold k0_pay2
  rw [addf_apply, shapeCast_self, shapeCast_self, Cert.PlainDot.matmul_zero_apply dot_plain rfl rfl]
  rfl

/-- The last step at entry (p, q): the bias row's entry q is added and the result cut off below at zero. -/
theorem pay3_apply (acc : Vec Ideal S1024x2048 .f32) (b : Vec Ideal S1x2048 .f32) (p : Fin 1024) (q : Fin 2048) :
    k0_pay3 acc b (ix2 p q) = max (acc (ix2 p q) + b (ix2 (0 : Fin 1) q)) 0 := by
  unfold k0_pay3
  rw [maximumf_apply, addf_apply, shapeCast_self, shapeCast_self, broadcastTo_1b_ab_apply, broadcast_apply]
  exact congrArg (max _) Ideal.ofBits_zero_f32

/-! ## The arrays the call works on, and its blocks -/

variable (m : (ℓ : Loc nD τ sig) → Buf (Elt Ideal) ℓ)

/-- The activations, the masked weight (weight times the mask read as 0 / 1) and the bias, on core c. -/
abbrev xarr (c : Dev nD) : Vec Ideal S16384x4096 .f32 := m ((c : Thread nD τ).loc main_arg0)
abbrev wraw (c : Dev nD) : FVec Ideal S4096x4096 .f32 := m ((c : Thread nD τ).loc main_arg1)
abbrev mbit (c : Dev nD) : IVec S4096x4096 1 := m ((c : Thread nD τ).loc main_arg2)
abbrev warr (c : Dev nD) : FVec Ideal S4096x4096 .f32 := mulf (wraw m c) (uitofp .f32 (mbit m c))
abbrev barr (c : Dev nD) : Vec Ideal S4096 .f32 := m ((c : Thread nD τ).loc main_arg3)

/-- The call's second operand is the masked weight (its change of format is the identity here). -/
theorem V_w (c : Dev nD) : (V m c main_v2 : Vec Ideal S4096x4096 .bf16) = truncf .bf16 (warr m c) bitsLt_bf16_f32 := by
  dsimp only [V, hostOps0]
  after_results

/-- The call's third operand is the bias laid out as one row. -/
theorem V_b (c : Dev nD) : (V m c main_v3 : Vec Ideal S1x4096 .f32) = shapeCast S1x4096 (barr m c) shapeCasts_S4096_S1x4096 := by
  dsimp only [V, hostOps0]
  after_results
  rfl

/-- A vector laid out as one row, read where the column is known as a natural. -/
theorem row_at {a : ℕ} (v : (⟨1, ![a]⟩ : Shape).Idx → EReal) (h : (⟨1, ![a]⟩ : Shape).ShapeCasts ⟨2, ![1, a]⟩)
    (x : (⟨2, ![1, a]⟩ : Shape).Idx) (j : ℕ) (hj : (x 1).val = j) : shapeCast ⟨2, ![1, a]⟩ v h x = at1 v j := by
  have h0 : (x 0).val < 1 := (x 0).isLt
  have hlt : j < a := hj ▸ (x 1).isLt
  have e : x = ix2 (0 : Fin 1) (⟨j, hlt⟩ : Fin a) := by
    funext d
    apply Fin.ext
    match d with
    | ⟨0, _⟩ => show (x 0).val = 0; omega
    | ⟨1, _⟩ => exact hj
  rw [e, shapeCast_a_1a_apply]
  exact (at1_ix1 v ⟨j, hlt⟩).symm

/-- The printed index maps over the grid: point t = 16·i + 8·j + k fetches block (i, k) of the activations,
    block (k, j) of the masked weight and block (0, j) of the bias row. -/
theorem idx_facts : ∀ t : Fin cfg0.N,
    win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = 0 ∧ win0_2.index t (1 : Fin 2) = t.val / 8 % 2 :=
  (by decide +kernel : ∀ t : Fin grid0.N, _)

/-- The three input blocks at point t, each at its own shape: 1024 rows by one chunk of the activations, one chunk by
    2048 columns of the masked weight, 2048 entries of the bias row. -/
abbrev xblk (c : Dev nD) (t : Fin cfg0.N) : Vec Ideal S1024x512 .f32 := iblk m c 0 t
abbrev wblk (c : Dev nD) (t : Fin cfg0.N) : Vec Ideal S512x2048 .bf16 := iblk m c 1 t
abbrev bblk (c : Dev nD) (t : Fin cfg0.N) : Vec Ideal S1x2048 .f32 := iblk m c 2 t

/-- Entry (p, κ) of the activations' block at point t. -/
theorem xblk_apply (c : Dev nD) (t : Fin cfg0.N) (p : Fin 1024) (κ : Fin 512) :
    xblk m c t (ix2 p κ)
      = at2 (xarr m c) (1024 * (t.val / 16) + p.val) (512 * (t.val % 8) + κ.val) := by
  obtain ⟨h0, h1, -⟩ := idx_facts t
  show iblk m c 0 t (ix2 p κ) = _
  unfold iblk
  rw [View.read_apply]
  show V m c main_arg0 (((cfg0.win 0).blk t).view.emb (ix2 p κ)) = _
  rw [V_main_arg0]
  refine eq_at2 _ _ _ _ ?_ ?_
  · show win0_0.index t (0 : Fin 2) * 1024 + 1 * p.val = _
    rw [h0]; omega
  · show win0_0.index t (1 : Fin 2) * 512 + 1 * κ.val = _
    rw [h1]; omega

/-- Entry (κ, q) of the masked weight's block at point t. -/
theorem wblk_apply (c : Dev nD) (t : Fin cfg0.N) (κ : Fin 512) (q : Fin 2048) :
    wblk m c t (ix2 κ q)
      = at2 (warr m c) (512 * (t.val % 8) + κ.val) (2048 * (t.val / 8 % 2) + q.val) := by
  obtain ⟨-, -, h0, h1, -⟩ := idx_facts t
  show iblk m c 1 t (ix2 κ q) = _
  unfold iblk
  rw [View.read_apply]
  show V m c main_v2 (((cfg0.win 1).blk t).view.emb (ix2 κ q)) = _
  rw [V_w]
  show warr m c (((cfg0.win 1).blk t).view.emb (ix2 κ q)) = _
  refine eq_at2 _ _ _ _ ?_ ?_
  · show win0_1.index t (0 : Fin 2) * 512 + 1 * κ.val = _
    rw [h0]; omega
  · show win0_1.index t (1 : Fin 2) * 2048 + 1 * q.val = _
    rw [h1]; omega

/-- Entry q of the bias row's block at point t. -/
theorem bblk_apply (c : Dev nD) (t : Fin cfg0.N) (q : Fin 2048) :
    bblk m c t (ix2 (0 : Fin 1) q) = at1 (barr m c) (2048 * (t.val / 8 % 2) + q.val) := by
  obtain ⟨-, -, -, -, -, h1⟩ := idx_facts t
  show iblk m c 2 t (ix2 (0 : Fin 1) q) = _
  unfold iblk
  rw [View.read_apply]
  show V m c main_v3 (((cfg0.win 2).blk t).view.emb (ix2 (0 : Fin 1) q)) = _
  rw [V_b]
  refine row_at _ _ _ _ ?_
  show win0_2.index t (1 : Fin 2) * 2048 + 1 * q.val = _
  rw [h1]; omega

/-! ## One run of eight points at an entry -/

/-- Entry (p, q) of the chunk product at point n: the activations' block times the masked weight's block
    (zero past the grid, where it is never used). -/
def addendAt (c : Dev nD) (n : ℕ) (p : Fin 1024) (q : Fin 2048) : EReal :=
  if h : n < cfg0.N then
    ∑ κ : Fin 512, xblk m c ⟨n, h⟩ (ix2 p κ) * wblk m c ⟨n, h⟩ (ix2 κ q)
  else 0

/-- The same as a function of the block's index. -/
def addend (c : Dev nD) (n : ℕ) : S1024x2048.Idx → EReal := fun y => addendAt m c n (y 0) (y 1)

/-- One accumulation step at point t adds that point's chunk product. -/
theorem step_apply (c : Dev nD) (t : Fin cfg0.N) (acc : Vec Ideal S1024x2048 .f32) (p : Fin 1024) (q : Fin 2048) :
    k0_pay2 (xblk m c t) acc (wblk m c t) (ix2 p q) = acc (ix2 p q) + addendAt m c t.val p q := by
  refine (pay2_apply (xblk m c t) acc (wblk m c t) p q).trans ?_
  unfold addendAt
  rw [dif_pos t.isLt]

/-- The chunk product of point n in terms of the whole arrays: with the point's rows starting so that local row p is
    row P, its columns so that local column q is column Q, and its chunk number s, it is the part of row P times
    column Q over the positions 512·s … 512·s + 511. -/
theorem addendAt_eq (c : Dev nD) (n : ℕ) (hn : n < cfg0.N) (p : Fin 1024) (q : Fin 2048) (P Q s : ℕ)
    (hP : 1024 * (n / 16) + p.val = P) (hs : n % 8 = s) (hQ : 2048 * (n / 8 % 2) + q.val = Q) :
    addendAt m c n p q = ∑ j : Fin 512, at2 (xarr m c) P (512 * s + j.val) * at2 (warr m c) (512 * s + j.val) Q := by
  subst hP; subst hs; subst hQ
  unfold addendAt
  rw [dif_pos hn]
  exact Finset.sum_congr rfl fun κ _ => congrArg₂ (· * ·) (xblk_apply m c ⟨n, hn⟩ p κ) (wblk_apply m c ⟨n, hn⟩ κ q)

/-- After the first seven points of a run starting at b (a multiple of 8) the block holds, at each entry, zero plus
    the seven chunk products of those points. -/
theorem run_seven (c : Dev nD) (b : ℕ) (hb : b % 8 = 0) (h : b + 6 < cfg0.N) (y : S1024x2048.Idx) :
    Pipeline.accAt (Value.reset3 m c) (Value.step3 m c) b 6 h y = 0 + ∑ s ∈ Finset.range 7, addend m c (b + s) y := by
  refine Pipeline.accAt_add_apply (Value.reset3 m c) (Value.step3 m c) (fun _ => (0 : EReal)) (addend m c) b 6 ?_ ?_ 6 le_rfl h y
  · intro h0 y
    obtain ⟨p, q, rfl⟩ : ∃ (p : Fin 1024) (q : Fin 2048), y = ix2 p q := ⟨y 0, y 1, eq_ix2 y⟩
    refine (step_apply m c ⟨b, h0⟩ (k0_pay1 (F := Ideal)) p q).trans ?_
    rw [pay1_apply]
    rfl
  · intro n hn acc y h1 h2
    obtain ⟨p, q, rfl⟩ : ∃ (p : Fin 1024) (q : Fin 2048), y = ix2 p q := ⟨y 0, y 1, eq_ix2 y⟩
    unfold Value.step3
    rw [if_pos ⟨by omega, by omega⟩]
    exact step_apply m c ⟨n, hn⟩ acc p q

/-- After the eighth point the block holds, at entry (p, q): the eight chunk products accumulated from zero, plus the
    bias row's entry q, cut off below at zero. -/
theorem run_eight (c : Dev nD) (b : ℕ) (hb : b % 8 = 0) (h : b + 7 < cfg0.N) (p : Fin 1024) (q : Fin 2048) :
    Pipeline.accAt (Value.reset3 m c) (Value.step3 m c) b 7 h (ix2 p q)
      = max (((0 + ∑ s ∈ Finset.range 7, addendAt m c (b + s) p q) + addendAt m c (b + 7) p q)
          + bblk m c ⟨b + 7, h⟩ (ix2 (0 : Fin 1) q)) 0 := by
  rw [Pipeline.accAt_succ]
  unfold Value.step3
  rw [if_neg (by omega), if_pos ⟨by omega, by omega⟩]
  refine (pay3_apply (k0_pay2 (xblk m c ⟨b + 7, h⟩) (Pipeline.accAt (Value.reset3 m c) (Value.step3 m c) b 6 (Nat.lt_of_succ_lt h)) (wblk m c ⟨b + 7, h⟩))
    (bblk m c ⟨b + 7, h⟩) p q).trans ?_
  refine congrArg (fun z => max (z + bblk m c ⟨b + 7, h⟩ (ix2 (0 : Fin 1) q)) 0) ?_
  refine (step_apply m c ⟨b + 7, h⟩ (Pipeline.accAt (Value.reset3 m c) (Value.step3 m c) b 6 (Nat.lt_of_succ_lt h)) p q).trans ?_
  rw [run_seven m c b hb (Nat.lt_of_succ_lt h) (ix2 p q)]
  rfl

/-! ## The result array at an entry -/

/-- The result at an index is the fold of the run that writes that index's block, read at the index's place in the
    block. -/
theorem G3_of (c : Dev nD) (i : S16384x4096.Idx) (r : ℕ) (hr : Value.run3Of i = r) (h : 8 * r + 7 < cfg0.N)
    (y : S1024x2048.Idx) (hy : Value.loc3Of i = y) :
    Value.G3 (F := Ideal) m c i = Pipeline.accAt (Value.reset3 m c) (Value.step3 m c) (8 * r) 7 h y := by
  subst hr; subst hy
  unfold Value.G3
  rw [dif_pos h]

/-- Entry (P, Q) of the kernel's result: row P of the activations times column Q of the masked weight, plus the bias
    at Q, cut off below at zero. Row P lies in row block P / 1024 at local row P % 1024, column Q in column block
    Q / 2048 at local column Q % 2048; the run of that block is number 2·(P / 1024) + Q / 2048, and its eight chunk
    products are the eight chunks of the whole sum. -/
theorem G3_apply (c : Dev nD) (P : Fin 16384) (Q : Fin 4096) :
    Value.G3 (F := Ideal) m c (ix2 P Q)
      = max ((∑ k : Fin 4096, xarr m c (ix2 P k) * warr m c (ix2 k Q)) + barr m c (ix1 Q)) 0 := by
  have hP : P.val < 16384 := P.isLt
  have hQ : Q.val < 4096 := Q.isLt
  have hN : cfg0.N = 256 := N_0
  obtain ⟨p, hp⟩ : ∃ p : Fin 1024, p.val = P.val % 1024 := ⟨⟨P.val % 1024, Nat.mod_lt _ (by decide)⟩, rfl⟩
  obtain ⟨q, hq⟩ : ∃ q : Fin 2048, q.val = Q.val % 2048 := ⟨⟨Q.val % 2048, Nat.mod_lt _ (by decide)⟩, rfl⟩
  obtain ⟨r, hr⟩ : ∃ r : ℕ, r = 2 * (P.val / 1024) + Q.val / 2048 := ⟨_, rfl⟩
  have hrun : Value.run3Of (ix2 P Q) = r := by
    show 2 * (P.val / 1024 - 0) + 1 * (Q.val / 2048 - 0) = r
    omega
  have hloc : Value.loc3Of (ix2 P Q) = ix2 p q := by
    funext a
    apply Fin.ext
    match a with
    | ⟨0, _⟩ => exact hp.symm
    | ⟨1, _⟩ => exact hq.symm
  have hb7 : 8 * r + 7 < cfg0.N := by omega
  rw [G3_of m c (ix2 P Q) r hrun hb7 (ix2 p q) hloc]
  refine (run_eight m c (8 * r) (Nat.mul_mod_right 8 r) hb7 p q).trans ?_
  -- each point's chunk product in terms of the whole arrays
  have hc : ∀ s : ℕ, s < 8 → addendAt m c (8 * r + s) p q
      = ∑ j : Fin 512, at2 (xarr m c) P.val (512 * s + j.val) * at2 (warr m c) (512 * s + j.val) Q.val :=
    fun s hs => addendAt_eq m c (8 * r + s) (by omega) p q P.val Q.val s (by omega) (by omega) (by omega)
  -- the bias row's entry
  have hbias : bblk m c ⟨8 * r + 7, hb7⟩ (ix2 (0 : Fin 1) q) = barr m c (ix1 Q) := by
    refine (bblk_apply m c ⟨8 * r + 7, hb7⟩ q).trans ?_
    rw [← at1_ix1 (barr m c) Q]
    congr 1
    show 2048 * ((8 * r + 7) / 8 % 2) + q.val = Q.val
    omega
  -- the eight chunk products accumulated from zero are the whole sum
  have hsum : (0 + ∑ s ∈ Finset.range 7, addendAt m c (8 * r + s) p q) + addendAt m c (8 * r + 7) p q
      = ∑ k : Fin 4096, xarr m c (ix2 P k) * warr m c (ix2 k Q) :=
    calc (0 + ∑ s ∈ Finset.range 7, addendAt m c (8 * r + s) p q) + addendAt m c (8 * r + 7) p q
        = (0 + ∑ s ∈ Finset.range 7, ∑ j : Fin 512, at2 (xarr m c) P.val (512 * s + j.val) * at2 (warr m c) (512 * s + j.val) Q.val)
            + ∑ j : Fin 512, at2 (xarr m c) P.val (512 * 7 + j.val) * at2 (warr m c) (512 * 7 + j.val) Q.val := by
          rw [Finset.sum_congr rfl (fun s hs => hc s (by have := Finset.mem_range.mp hs; omega)), hc 7 (by omega)]
      _ = ∑ s : Fin 8, ∑ j : Fin 512, at2 (xarr m c) P.val (512 * s.val + j.val) * at2 (warr m c) (512 * s.val + j.val) Q.val :=
          acc_eight (fun s => ∑ j : Fin 512, at2 (xarr m c) P.val (512 * s + j.val) * at2 (warr m c) (512 * s + j.val) Q.val)
      _ = ∑ k : Fin 4096, at2 (xarr m c) P.val k.val * at2 (warr m c) k.val Q.val :=
          (sum_chunks (fun k => at2 (xarr m c) P.val k * at2 (warr m c) k Q.val)).symm
      _ = ∑ k : Fin 4096, xarr m c (ix2 P k) * warr m c (ix2 k Q) :=
          Finset.sum_congr rfl fun k _ => by rw [at2_ix2, at2_ix2]
  rw [hsum, hbias]

end Cert.KernelIdeal.Entry

end
-- ==== Proof.ReferenceValue.lean ====
/-
  The reference's result array, entry by entry.

  The reference multiplies the activations by the masked weight (weight times the mask read as 0 / 1) in one
  matrix product over the whole contracted axis, adds the bias along the rows and cuts the result off below at zero:
      entry (P, Q)  =  max ( ∑ κ < 4096, x (P, κ) · w (κ, Q) + bias Q , 0 ).
  The bias reaches entry (P, Q) through two broadcasts (the vector as one row, the row down all rows) and the zero
  through the broadcast of a scalar; none of the three changes a value.
-/
import proofs.«109987_j12575664242876_1_alg».proof.Proof.Gen.ReferenceIdeal.Run
import proofs.«109987_j12575664242876_1_alg».proof.Proof.LibPlainDot
import Idealize.ShloMosaic.Lib.ValueIdx
import Idealize.ShloMosaic.Lib.Pipeline.Value
import Idealize.ShloMosaic.Lib.KernelVsHost
import Idealize.ShloMosaic.Lib.IdealHost
import Idealize.ShloMosaic.PureOps.Ideal.Laws

noncomputable section

namespace Cert.ReferenceIdeal.Entry

open Cert.ReferenceIdeal Idealize.ShloMosaic Idealize.ShloMosaic.ValueIdx

/-- The reference's product is a plain [16384, 4096] · [4096, 4096] matrix product. -/
theorem dot_plain : Cert.PlainDot.Plain dot_S16384x4096_S4096x4096_S16384x4096_1_0_0_1_n_n :=
  ⟨rfl, rfl, rfl, rfl, rfl, rfl⟩

/-- The bias vector as one row, that row down all rows, read at (P, Q): the bias at Q. -/
theorem bias_apply (b : FVec Ideal S4096 .f32) (h1 : S4096.BroadcastsInDim S1x4096 ![1])
    (h2 : S1x4096.BroadcastsInDim S16384x4096 ![0, 1]) (P : Fin 16384) (Q : Fin 4096) :
    broadcastInDim S16384x4096 ![0, 1] h2 (broadcastInDim S1x4096 ![1] h1 b) (ix2 P Q) = b (ix1 Q) := by
  rw [broadcastInDim_oneRow_apply]
  refine broadcastInDim_apply ![1] h1 b (ix2 (0 : Fin 1) Q) (ix1 Q) fun a => ?_
  match a with
  | ⟨0, _⟩ => rfl

/-- The reference's result at entry (P, Q). -/
theorem result_apply (x : FVec Ideal S16384x4096 .f32) (w : FVec Ideal S4096x4096 .f32) (b : FVec Ideal S4096 .f32)
    (h1 : S4096.BroadcastsInDim S1x4096 ![1]) (h2 : S1x4096.BroadcastsInDim S16384x4096 ![0, 1])
    (h3 : S_.BroadcastsInDim S16384x4096 ![]) (P : Fin 16384) (Q : Fin 4096) :
    maximumf
        (addf (Host.dotGeneral dot_S16384x4096_S4096x4096_S16384x4096_1_0_0_1_n_n none x w)
          (broadcastInDim S16384x4096 ![0, 1] h2 (broadcastInDim S1x4096 ![1] h1 b)))
        (broadcastInDim S16384x4096 ![] h3 (constant S_ .f32 0x00000000#32)) (ix2 P Q)
      = max ((∑ k : Fin 4096, x (ix2 P k) * w (ix2 k Q)) + b (ix1 Q)) 0 := by
  rw [maximumf_apply, addf_apply, Cert.PlainDot.dotGeneral_apply dot_plain rfl rfl, bias_apply,
    broadcastInDim_scalar_apply, constant_apply]
  exact congrArg (max _) Ideal.ofBits_zero_f32

end Cert.ReferenceIdeal.Entry

end
-- ==== Proof.lean ====
/-
  A masked dense layer: the kernel and its reference both compute
      out (P, Q)  =  max ( ∑ κ < 4096, x (P, κ) · w (κ, Q) + bias Q , 0 ),      w = weight · (mask read as 0 / 1),
  over x : [16384, 4096], weight and mask : [4096, 4096], bias : [4096].

  The reference does it in one matrix product. The kernel forms w on the host, then tiles the product on a
  16 × 2 × 8 grid: the output block of 1024 rows by 2048 columns is set to zero at the first of its eight points,
  receives at each point the product of one chunk of 512 positions of the contracted axis, and at the last point has
  the bias added and is cut off below at zero. The kernel also passes x and w through a narrower float format, which on
  the extended reals changes nothing.

  So the two results agree entry by entry as soon as eight chunk sums accumulated one after the other from zero are
  the one sum over all 4096 positions: a regrouping of a finite sum, which holds on the extended reals by
  commutativity and associativity of addition alone. The finiteness of the inputs is not needed.

  The three frame claims are the generated runs (the kernel's at the word level by its generated frame); the
  idealization rewrote no operation, so it is preserved trivially.
-/
import proofs.«109987_j12575664242876_1_alg».proof.Defs
import proofs.«109987_j12575664242876_1_alg».proof.Proof.Gen.Kernel.Frame
import proofs.«109987_j12575664242876_1_alg».proof.Proof.Gen.KernelIdeal.Value
import proofs.«109987_j12575664242876_1_alg».proof.Proof.Gen.Pre_finite_inputs
import proofs.«109987_j12575664242876_1_alg».proof.Proof.Gen.ReferenceIdeal.Run
import proofs.«109987_j12575664242876_1_alg».proof.Proof.KernelValue
import proofs.«109987_j12575664242876_1_alg».proof.Proof.ReferenceValue
import Idealize.ShloMosaic.Adequacy
import Idealize.ShloMosaic.Init

noncomputable section

namespace Cert.Proof

open Idealize.ShloMosaic Idealize.SL.Sem Idealize.ShloMosaic.ValueIdx

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs run, and on arguments that agree their results agree at every entry (P, Q): the kernel's is the
    fold of the run that owns the entry's block, the reference's the one product; both are
    max (row P · column Q + bias Q, 0). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  obtain ⟨P, Q, rfl⟩ : ∃ (P : Fin 16384) (Q : Fin 4096), i = ix2 P Q := ⟨i 0, i 1, eq_ix2 i⟩
  rw [Cert.KernelIdeal.Entry.G3_apply m c P Q]
  exact Cert.ReferenceIdeal.Entry.result_apply _ _ _ _ _ _ P Q

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
